-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x256 .f32) (main_arg1 : FVec F S4096x4096 .f32) (main_arg2 : FVec F S256x256 .f32) (main_arg3 : FVec F S256x256 .f32) (main_arg4 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S512x2048 : Shape := ⟨2, ![512, 2048]⟩
abbrev S512x256 : Shape := ⟨2, ![512, 256]⟩
abbrev S2048x256 : Shape := ⟨2, ![2048, 256]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S4096x256, .f32⟩
  | .local _ .vmem, ⟨0, _⟩ => ⟨S4096x256, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  h_S512x256 : 0 < S512x256.numel
  inb_S512x2048_S512x2048_0_0 : ∀ a, (![0, 0] : Fin 2 → Nat) a + S512x2048.size a ≤ S512x2048.size a
  h_S512x2048 : 0 < S512x2048.numel
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S4096x256_S256x256_S4096x256_1_0_0_1_n_n_wf : DotDims.WF S4096x256 S256x256 S4096x256 [1] [0] [0] [1] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x256.size a
  hwx0_6 : ∀ i : grid0.Coords, EltTy.bits .f32 = 32 ∨ (Rect.block (s := S4096x256) S512x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.KSetup.lean ====
/-
  The fused node-convolution kernel around its one region: what the arrays hold when the region is entered (the
  arguments as launched, and the bias made a row by the one host reshape before it), each window's block at a grid
  point read off those arrays, that every input window's staging buffer holds its block at every point, the body's
  one branch (taken at the first of the eight points only), and the memrefs the body is called with.
-/
import proofs.«153418_g89275190215169_cont_sun_m_580_8_alg».proof.Proof.Gen.Kernel.Launch
import proofs.«153418_g89275190215169_cont_sun_m_580_8_alg».proof.Proof.Gen.Kernel.Skeleton
import proofs.«153418_g89275190215169_cont_sun_m_580_8_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: a buffer other than it is found as launched. -/
theorem V_of_ne (c : Dev nD) (b : Ref sig .tc) (hb : b ≠ main_call0_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Every input window's current staging buffer holds its block at every point, fetched there or not, for any proof
    data whose array is the entry contents and whose body leaves the block in place: an unfetched point's index has
    not moved since the last fetch, and no window is cut or idle. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one `if`: the grid coordinate is zero. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle at any point. -/
theorem live0 : ∀ (w : Fin cfg0.W) (i : grid0.Coords), cfg0.idle w i = false := fun _ _ => rfl

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
/-- The message table's scratch buffer, whole. -/
abbrev scM : Memref sig .tc .vmem S4096x256 .f32 := Memref.whole cc0_scratch0
/-- One staging buffer of the output window, through which its contents are stated. -/
abbrev VO : View sig .tc .vmem S512x256 .f32 := (Memref.whole cc0_stg6_0 : Memref sig .tc .vmem S512x256 .f32).view
/-- The scratch as a view. -/
abbrev VS : View sig .tc .vmem S4096x256 .f32 := scM.view

/-- The core's scoped buffers outside the staging buffers are the scratch alone, owned at some contents. -/
theorem scopedRest_eq' (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Fr

end
-- ==== Proof.KRunA.lean ====
/-
  The kernel body at the first grid point, where its branch is taken: on whole memrefs holding the six input blocks, the
  output buffer and the scratch at anything, it runs to the end leaving the inputs as they were, the message table
  stored over the whole scratch, and the output block stored over the whole output buffer. What the two stores leave
  is kept as the list of stored pieces the run meets.
-/
import proofs.«153418_g89275190215169_cont_sun_m_580_8_alg».proof.Proof.KSetup

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The pieces the body's stores leave in the output buffer (`L6`) and in the scratch (`LS`) at a point where the branch is
    taken, with the body's triple there. -/
noncomputable def kernelRunA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    Σ' (L6 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]; · iexists _; iexact H7
    iexists _; iexact H8

end Cert.Kernel.Fr

end
-- ==== Proof.KRunB.lean ====
/-
  The kernel body at a later grid point, where its branch is not taken: on whole memrefs holding the six input blocks,
  the scratch at the contents the earlier points left and the output buffer at anything, it runs to the end leaving
  the inputs and the scratch as they were and the output block stored over the whole output buffer. What the store
  leaves is kept as the list of stored pieces the run meets.
-/
import proofs.«153418_g89275190215169_cont_sun_m_580_8_alg».proof.Proof.KRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The pieces the body's store leaves in the output buffer at a point where the branch is not taken, with the body's
    triple there: the scratch is only read. -/
noncomputable def kernelRunB (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) :
    { L6 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ owns (c : Thread nD τ) arg8 fullShare xs) -∗ K ⟨⟩))
          ⊢ wp frame (wpE (defs₀ (F := F)) Variants.none c none) E (cc0__fused_body i arg1 harg1 arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]; · iexists _; iexact H7
    iexists _; isplitr; · ipureintro; exact harg8.read_unread _
    iexact H8

end Cert.Kernel.Fr

end
-- ==== Proof.KPieces.lean ====
/-
  What the body's stores leave, as values. At the first grid point the scratch ends at the product of the node features
  and the node weights, the message table; the output block ends, at every point, at the body's one arithmetic term of
  the blocks it loaded: the block's own feature rows, the two mask halves, the table's upper and lower 2048 rows, the
  root weights and the bias row.
-/
import proofs.«153418_g89275190215169_cont_sun_m_580_8_alg».proof.Proof.KRunB
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the stores leave -/

/-- At the first point the one store into the output buffer covers it. -/
theorem coverA6 (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) (y : S512x256.Idx) :
    ∃ pc ∈ (kernelRunA c i arg1 harg1 arg2 harg2 arg3 harg3 arg4 harg4 arg5 harg5 arg6 harg6 arg7 harg7 arg8 harg8 hc x0 x1 x2 x3 x4 x5).1, y ∈ pc.1.set :=
  View.cover_of_tiledL (kernelRunA c i arg1 harg1 arg2 harg2 arg3 harg3 arg4 harg4 arg5 harg5 arg6 harg6 arg7 harg7 arg8 harg8 hc x0 x1 x2 x3 x4 x5).1 S512x256.size (by sl_kernel_rfl) y

/-- At the first point the one store into the scratch covers it. -/
theorem coverAS (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) (y : S4096x256.Idx) :
    ∃ pc ∈ (kernelRunA c i arg1 harg1 arg2 harg2 arg3 harg3 arg4 harg4 arg5 harg5 arg6 harg6 arg7 harg7 arg8 harg8 hc x0 x1 x2 x3 x4 x5).2.1, y ∈ pc.1.set :=
  View.cover_of_tiledL (kernelRunA c i arg1 harg1 arg2 harg2 arg3 harg3 arg4 harg4 arg5 harg5 arg6 harg6 arg7 harg7 arg8 harg8 hc x0 x1 x2 x3 x4 x5).2.1 S4096x256.size (by sl_kernel_rfl) y

/-- At a later point the one store into the output buffer covers it. -/
theorem coverB6 (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) (y : S512x256.Idx) :
    ∃ pc ∈ (kernelRunB c i arg1 harg1 arg2 harg2 arg3 harg3 arg4 harg4 arg5 harg5 arg6 harg6 arg7 harg7 arg8 harg8 hc x0 x1 x2 x3 x4 x5 xs).1, y ∈ pc.1.set :=
  View.cover_of_tiledL (kernelRunB c i arg1 harg1 arg2 harg2 arg3 harg3 arg4 harg4 arg5 harg5 arg6 harg6 arg7 harg7 arg8 harg8 hc x0 x1 x2 x3 x4 x5 xs).1 S512x256.size (by sl_kernel_rfl) y

/-- What the first point leaves in the output buffer. -/
def outA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) : Vec F S512x256 .f32 :=
  VO.read (Elt F) (VO.writes (Elt F) VO.junk (kernelRunA c i arg1 harg1 arg2 harg2 arg3 harg3 arg4 harg4 arg5 harg5 arg6 harg6 arg7 harg7 arg8 harg8 hc x0 x1 x2 x3 x4 x5).1)

/-- What the first point leaves in the scratch. -/
def scrA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) : Vec F S4096x256 .f32 :=
  VS.read (Elt F) (VS.writes (Elt F) VS.junk (kernelRunA c i arg1 harg1 arg2 harg2 arg3 harg3 arg4 harg4 arg5 harg5 arg6 harg6 arg7 harg7 arg8 harg8 hc x0 x1 x2 x3 x4 x5).2.1)

/-- What a later point leaves in the output buffer, the scratch holding `xs`. -/
def outB (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) : Vec F S512x256 .f32 :=
  VO.read (Elt F) (VO.writes (Elt F) VO.junk (kernelRunB c i arg1 harg1 arg2 harg2 arg3 harg3 arg4 harg4 arg5 harg5 arg6 harg6 arg7 harg7 arg8 harg8 hc x0 x1 x2 x3 x4 x5 xs).1)

/-! ## The stored values -/

theorem hz2 : (![0, 0] : Fin 2 → Nat) = fun _ => 0 := funext fun a => by fin_cases a <;> rfl

/-- The 512 feature rows of the point: rows 512·i to 512·i + 511 of the features. -/
abbrev rRows (i : grid0.Coords) : Rect S4096x256 := Rect.unit (s := S4096x256) (k0_off1 i) S512x256.size (k0_off1_inb i)
/-- The table's rows 0 to 2047. -/
abbrev rTop : Rect S4096x256 := Rect.unit (s := S4096x256) ![0, 0] S2048x256.size inb_S4096x256_S2048x256_0_0
/-- The table's rows 2048 to 4095. -/
abbrev rBot : Rect S4096x256 := Rect.unit (s := S4096x256) ![2048, 0] S2048x256.size inb_S4096x256_S2048x256_2048_0

/-- The output block as the body computes it from the features `x0`, the two mask halves `x1`, `x2`, the root
    weights `x4`, the bias row `x5` and the message table `P`. -/
def blockVal (i : grid0.Coords) (x0 : Vec F S4096x256 .f32) (x1 x2 : Vec F S512x2048 .f32) (x4 : Vec F S256x256 .f32)
    (x5 : Vec F S1x256 .f32) (P : Vec F S4096x256 .f32) : Vec F S512x256 .f32 :=
  k0_pay2 (View.ld x0 (rRows i)) x1 (View.ld P rTop) x2 (View.ld P rBot) x4 x5

/-- One store through the whole scratch covers it. -/
theorem cover_one (w : S4096x256.Idx → Elt F .f32) (y : S4096x256.Idx) :
    ∃ p ∈ [(⟨Rect.unit (s := S4096x256) ![0, 0] S4096x256.size inb_S4096x256_S4096x256_0_0, w⟩ : View.Piece (Elt F) S4096x256 .f32)], y ∈ p.1.set :=
  View.cover_of_tiledL _ S4096x256.size (by sl_kernel_rfl) y

/-- The scratch after the first point is the message table of the loaded features and weights. -/
theorem scrA_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    scrA c i arg1 harg1 arg2 harg2 arg3 harg3 arg4 harg4 arg5 harg5 arg6 harg6 arg7 harg7 arg8 harg8 hc x0 x1 x2 x3 x4 x5 = k0_pay1 x0 x3 := by
  unfold scrA
  rw [View.read_writes_eq_canon _ _ _ (coverAS c i arg1 harg1 arg2 harg2 arg3 harg3 arg4 harg4 arg5 harg5 arg6 harg6 arg7 harg7 arg8 harg8 hc x0 x1 x2 x3 x4 x5)]
  unfold kernelRunA
  dsimp only
  sl_unfold_words
  rw [View.canon_unit_zero (S := S4096x256) hz2]
  simp only [View.readAt_eq_ld, harg1.read_unread, harg4.read_unread, View.ld_unit_zero (S := S4096x256) hz2, View.ld_unit_zero (S := S256x256) hz2]

/-- The output block after a later point: the body's term over the scratch's contents. -/
theorem outB_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) :
    outB c i arg1 harg1 arg2 harg2 arg3 harg3 arg4 harg4 arg5 harg5 arg6 harg6 arg7 harg7 arg8 harg8 hc x0 x1 x2 x3 x4 x5 xs = blockVal i x0 x1 x2 x4 x5 xs := by
  unfold outB
  rw [View.read_writes_eq_canon _ _ _ (coverB6 c i arg1 harg1 arg2 harg2 arg3 harg3 arg4 harg4 arg5 harg5 arg6 harg6 arg7 harg7 arg8 harg8 hc x0 x1 x2 x3 x4 x5 xs)]
  unfold kernelRunB
  dsimp only
  sl_unfold_words
  rw [View.canon_unit_zero (S := S512x256) hz2]
  simp only [View.readAt_eq_ld, harg1.read_unread, harg2.read_unread, harg3.read_unread, harg5.read_unread, harg6.read_unread, harg8.read_unread,
    View.ld_unit_zero (S := S512x2048) hz2, View.ld_unit_zero (S := S256x256) hz2, View.ld_unit_zero (S := S1x256) hz2]
  rfl

/-- The output block after the first point: the body's term over the table the same point has just stored. -/
theorem outA_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    outA c i arg1 harg1 arg2 harg2 arg3 harg3 arg4 harg4 arg5 harg5 arg6 harg6 arg7 harg7 arg8 harg8 hc x0 x1 x2 x3 x4 x5 = blockVal i x0 x1 x2 x4 x5 (k0_pay1 x0 x3) := by
  unfold outA
  rw [View.read_writes_eq_canon _ _ _ (coverA6 c i arg1 harg1 arg2 harg2 arg3 harg3 arg4 harg4 arg5 harg5 arg6 harg6 arg7 harg7 arg8 harg8 hc x0 x1 x2 x3 x4 x5)]
  unfold kernelRunA
  dsimp only
  sl_unfold_words
  rw [View.canon_unit_zero (S := S512x256) hz2]
  simp only [View.readCov_eq_canon_ld _ _ _ (cover_one _), View.canon_unit_zero (S := S4096x256) hz2,
    View.readAt_eq_ld, harg1.read_unread, harg2.read_unread, harg3.read_unread, harg4.read_unread, harg5.read_unread, harg6.read_unread,
    View.ld_unit_zero (S := S4096x256) hz2, View.ld_unit_zero (S := S512x2048) hz2, View.ld_unit_zero (S := S256x256) hz2, View.ld_unit_zero (S := S1x256) hz2]
  rfl

end Cert.Kernel.Fr

end
-- ==== Proof.KSplit.lean ====
/-
  How the region's arrays are dealt to its seven windows at entry. Six distinct buffers stand behind the seven windows:
  the mask is read by two input windows, its left column half and its right column half. The six buffers, each held
  whole at its entry contents, make the seven windows' arrays when the mask's full share is split into its two halves,
  one for each of the two windows on it; every other window takes its buffer outright.
-/
import proofs.«153418_g89275190215169_cont_sun_m_580_8_alg».proof.Proof.KSetup

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers behind the windows' arrays, whole at the entry contents, are the windows' arrays at entry, for any proof
    data whose arrays are the entry contents and whose input shares are the full share except on the two mask windows,
    which hold the left and the right half. -/
theorem arrays_of_bufs {c : Dev nD} (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) :
    (Pipeline.arrBufs (Ix := Unit) (Name := ℕ) (U := UR sig nD τ) (Lvl := ℕ) spec0 c (V m c) : sProp 𝕄) ⊢ dat.arrays (dat.arrAt · 0) := by
  -- An input window holds its array at the share the data give it; the output window holds its array whole.
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  -- Before any write-back a window's array is at its entry contents, the contents of the buffer behind it.
  have a0 : dat.arrAt 0 0 = V m c main_arg0 := hA 0
  have a1 : dat.arrAt 1 0 = V m c main_arg1 := hA 1
  have a2 : dat.arrAt 2 0 = V m c main_arg1 := hA 2
  have a3 : dat.arrAt 3 0 = V m c main_arg2 := hA 3
  have a4 : dat.arrAt 4 0 = V m c main_arg3 := hA 4
  have a5 : dat.arrAt 5 0 = V m c main_call0_v0 := hA 5
  have a6 : dat.arrAt 6 0 = V m c main_v0 := hA 6
  unfold Pipeline.arrBufs Dat.arrays
  -- The six distinct buffers on the left, the seven windows on the right, each listed one by one.
  rw [bigSep_eq_bigSepL_of_eq [main_arg0, main_arg1, main_arg2, main_arg3, main_call0_v0, main_v0] (by decide) (by decide), Gen.bigSep_W0]
  simp only [bigSepL_cons_cons, bigSepL_singleton]
  rw [s0, s1, s2, s3, s4, s5, s6, a0, a1, a2, a3, a4, a5, a6]
  -- Every window's array is a whole buffer: its elements are all of the buffer's.
  simp only [View.set_whole]
  refine (show (iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_arg3) ↦{fullShare} V m c main_arg3)
      ∗ (((c : Thread nD τ).loc main_call0_v0) ↦{fullShare} V m c main_call0_v0) ∗ (((c : Thread nD τ).loc main_v0) ↦{fullShare} V m c main_v0)) : sProp 𝕄) ⊢ _ from ?_)
  iintro ⟨H0, H1, H2, H3, H4, H5⟩
  -- The mask's full share is its left half and its right half, one for each of the two windows on it.
  ihave H := (pointsTo_share (PosShare.mem_left_op_right fullShare)).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

end Cert.Kernel.Fr

end
-- ==== Proof.KFrame.lean ====
/-
  The fused node-convolution kernel's region, point by point. The first of the eight grid points fills the scratch
  with the message table and every point stores one block of 512 rows of the result; the scratch is never written
  again, so after the first point it holds the table at every later point. From this: what each window's staging
  buffer holds after the body at each point, the region's invariant (the scratch at anything before the first point,
  at the table afterwards), the body's run at every point, and the run of the whole program, in which the two mask
  windows each hold half of the mask's share. The program's arguments end as they began.
-/
import proofs.«153418_g89275190215169_cont_sun_m_580_8_alg».proof.Proof.KPieces
import proofs.«153418_g89275190215169_cont_sun_m_580_8_alg».proof.Proof.KSplit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Point by point -/

/-- The message table: what the first point leaves in the scratch, from the first point's blocks. -/
def tbl (c : Dev nD) : Vec F S4096x256 .f32 :=
  scrA c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) scM (Memref.isWhole_whole _) ((hcond0 t0_0).mpr rfl) (iblk m c 0 t0_0) (iblk m c 1 t0_0) (iblk m c 2 t0_0) (iblk m c 3 t0_0) (iblk m c 4 t0_0) (iblk m c 5 t0_0)

/-- What the output window's staging buffer holds after the body at point `t`. -/
def outAt (c : Dev nD) (t : Fin cfg0.N) : Vec F S512x256 .f32 :=
  if h : t.val = 0 then
    outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t)
  else
    outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hc => h ((hcond0 t).mp hc)) (iblk m c 0 t) (iblk m c 1 t) (iblk m c 2 t) (iblk m c 3 t) (iblk m c 4 t) (iblk m c 5 t) (tbl m c)

theorem outAt_zero (c : Dev nD) (t : Fin cfg0.N) (h : t.val = 0) :
    outAt m c t = outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) := dif_pos h

theorem outAt_pos (c : Dev nD) (t : Fin cfg0.N) (h : ¬t.val = 0) :
    outAt m c t = outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hc => h ((hcond0 t).mp hc)) (iblk m c 0 t) (iblk m c 1 t) (iblk m c 2 t) (iblk m c 3 t) (iblk m c 4 t) (iblk m c 5 t) (tbl m c) := dif_neg h

/-- The message table is the product of the features and the weights as the region finds them at its first point. -/
theorem tbl_eq (c : Dev nD) : tbl m c = k0_pay1 (iblk m c 0 t0_0) (iblk m c 3 t0_0) := by
  unfold tbl
  exact scrA_eq c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) scM (Memref.isWhole_whole _) ((hcond0 t0_0).mpr rfl) (iblk m c 0 t0_0) (iblk m c 1 t0_0) (iblk m c 2 t0_0) (iblk m c 3 t0_0) (iblk m c 4 t0_0) (iblk m c 5 t0_0)

/-- At every point the output buffer ends at the body's term of the point's blocks and the message table: at the first
    point the table is the one the point has just stored, afterwards the one the scratch still holds. -/
theorem outAt_eq (c : Dev nD) (t : Fin cfg0.N) :
    outAt m c t = blockVal (grid0.coords t) (iblk m c 0 t) (iblk m c 1 t) (iblk m c 2 t) (iblk m c 4 t) (iblk m c 5 t) (tbl m c) := by
  by_cases hz : t.val = 0
  · rw [outAt_zero m c t hz, outA_eq]
    obtain rfl : t = t0_0 := Fin.ext hz
    rw [tbl_eq]
  · rw [outAt_pos m c t hz, outB_eq]

/-- The region's invariant before position `n`: the scratch at anything before the first point, at the message table
    afterwards. -/
def PhiS (c : Dev nD) (n : ℕ) : sProp 𝕄 :=
  if n = 0 then iprop(∃ d, owns (c : Thread nD τ) scM fullShare d) else owns (c : Thread nD τ) scM fullShare (tbl m c)

theorem PhiS_zero (c : Dev nD) : PhiS m c 0 = iprop(∃ d, owns (c : Thread nD τ) scM fullShare d) := if_pos rfl
theorem PhiS_pos (c : Dev nD) (n : ℕ) (h : n ≠ 0) : PhiS m c n = owns (c : Thread nD τ) scM fullShare (tbl m c) := if_neg h

/-! ## The proof data -/

/-- The region's proof data on core `c`: the arrays as the region finds them; after the body each input's buffer at
    its block and the output's at `outAt`; the invariant `PhiS`; the mask's share split between its two windows;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns: no window is idle at any point, so every buffer is left at the proof data's contents. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4800000 in
/-- The body at any point: the inputs' buffers hold their blocks; at the first point the scratch holds anything and the
    run leaves the message table in it, at a later point it holds the table and the run leaves it alone; either way
    the output buffer ends at `outAt`. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, after0, after1, after2, after3, after4, after5, after6]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  by_cases hz : t.val = 0
  · rw [outAt_zero m c t hz]
    obtain rfl : t = t0_0 := Fin.ext hz
    unfold outA tbl scrA
    rw [show PhiS m c (t0_0 : Fin cfg0.N).val = PhiS m c 0 from rfl, PhiS_zero]
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t0_0) _ _ _ _ _ _ _ _ _ _ _ _ _ _ _ _ ((hcond0 t0_0).mpr hz) (iblk m c 0 t0_0) (iblk m c 1 t0_0) (iblk m c 2 t0_0) (iblk m c 3 t0_0) (iblk m c 4 t0_0) (iblk m c 5 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (coverAS (F := F) c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA6 (F := F) c _ _ _ _ _ _ _ _ _ _ _ _ _ _ _ _ _ _ _ _ _ _ _ _)
  · rw [outAt_pos m c t hz, PhiS_pos m c _ hz]
    unfold outB
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ _ _ (fun hc => hz ((hcond0 t).mp hc)) (iblk m c 0 t) (iblk m c 1 t) (iblk m c 2 t) (iblk m c 3 t) (iblk m c 4 t) (iblk m c 5 t) (tbl m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB6 (F := F) c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- The launch hands the region its scoped rest, the scratch at anything: the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest_eq']
  iintro ⟨-, H⟩; iexact H

/-- After the last point the invariant gives the scoped rest back: the table's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest_eq']
  iintro H
  isplitr
  · iempintro
  iexists _; iexact H

/-- The mask's full share is dealt to its two windows half and half; every other array goes to its window outright. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of_bufs m (dats m 0 c) (A_eq m c) rfl rfl rfl rfl rfl rfl

set_option backward.isDefEq.respectTransparency.types false in
/-- At the compiled mesh, for any values, from any memory with zero counters: every weakly fair execution of the program
    terminates, every array of the region ends at what the proof data compute (an input array at its entry contents,
    the result with every block written back), and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr
      · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: every weakly fair execution terminates, nothing faults, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.Kernel.Fr

end
-- ==== Proof.KISetup.lean ====
/-
  The fused node-convolution kernel around its one region: what the arrays hold when the region is entered (the
  arguments as launched, and the bias made a row by the one host reshape before it), each window's block at a grid
  point read off those arrays, that every input window's staging buffer holds its block at every point, the body's
  one branch (taken at the first of the eight points only), and the memrefs the body is called with.
-/
import proofs.«153418_g89275190215169_cont_sun_m_580_8_alg».proof.Proof.Gen.KernelIdeal.Launch
import proofs.«153418_g89275190215169_cont_sun_m_580_8_alg».proof.Proof.Gen.KernelIdeal.Skeleton
import proofs.«153418_g89275190215169_cont_sun_m_580_8_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: a buffer other than it is found as launched. -/
theorem V_of_ne (c : Dev nD) (b : Ref sig .tc) (hb : b ≠ main_call0_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Every input window's current staging buffer holds its block at every point, fetched there or not, for any proof
    data whose array is the entry contents and whose body leaves the block in place: an unfetched point's index has
    not moved since the last fetch, and no window is cut or idle. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one `if`: the grid coordinate is zero. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle at any point. -/
theorem live0 : ∀ (w : Fin cfg0.W) (i : grid0.Coords), cfg0.idle w i = false := fun _ _ => rfl

/-! ## The memrefs the body is called with -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
/-- The message table's scratch buffer, whole. -/
abbrev scM : Memref sig .tc .vmem S4096x256 .f32 := Memref.whole cc0_scratch0
/-- One staging buffer of the output window, through which its contents are stated. -/
abbrev VO : View sig .tc .vmem S512x256 .f32 := (Memref.whole cc0_stg6_0 : Memref sig .tc .vmem S512x256 .f32).view
/-- The scratch as a view. -/
abbrev VS : View sig .tc .vmem S4096x256 .f32 := scM.view

/-- The core's scoped buffers outside the staging buffers are the scratch alone, owned at some contents. -/
theorem scopedRest_eq' (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Fr

end
-- ==== Proof.KIRunA.lean ====
/-
  The kernel body at the first grid point, where its branch is taken: on whole memrefs holding the six input blocks, the
  output buffer and the scratch at anything, it runs to the end leaving the inputs as they were, the message table
  stored over the whole scratch, and the output block stored over the whole output buffer. What the two stores leave
  is kept as the list of stored pieces the run meets.
-/
import proofs.«153418_g89275190215169_cont_sun_m_580_8_alg».proof.Proof.KISetup

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The pieces the body's stores leave in the output buffer (`L6`) and in the scratch (`LS`) at a point where the branch is
    taken, with the body's triple there. -/
noncomputable def kernelRunA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    Σ' (L6 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]; · iexists _; iexact H7
    iexists _; iexact H8

end Cert.KernelIdeal.Fr

end
-- ==== Proof.KIRunB.lean ====
/-
  The kernel body at a later grid point, where its branch is not taken: on whole memrefs holding the six input blocks,
  the scratch at the contents the earlier points left and the output buffer at anything, it runs to the end leaving
  the inputs and the scratch as they were and the output block stored over the whole output buffer. What the store
  leaves is kept as the list of stored pieces the run meets.
-/
import proofs.«153418_g89275190215169_cont_sun_m_580_8_alg».proof.Proof.KIRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The pieces the body's store leaves in the output buffer at a point where the branch is not taken, with the body's
    triple there: the scratch is only read. -/
noncomputable def kernelRunB (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) :
    { L6 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ owns (c : Thread nD τ) arg8 fullShare xs) -∗ K ⟨⟩))
          ⊢ wp frame (wpE (defs₀ (F := F)) Variants.none c none) E (cc0__fused_body i arg1 harg1 arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]; · iexists _; iexact H7
    iexists _; isplitr; · ipureintro; exact harg8.read_unread _
    iexact H8

end Cert.KernelIdeal.Fr

end
-- ==== Proof.KIPieces.lean ====
/-
  What the body's stores leave, as values. At the first grid point the scratch ends at the product of the node features
  and the node weights, the message table; the output block ends, at every point, at the body's one arithmetic term of
  the blocks it loaded: the block's own feature rows, the two mask halves, the table's upper and lower 2048 rows, the
  root weights and the bias row.
-/
import proofs.«153418_g89275190215169_cont_sun_m_580_8_alg».proof.Proof.KIRunB
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the stores leave -/

/-- At the first point the one store into the output buffer covers it. -/
theorem coverA6 (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) (y : S512x256.Idx) :
    ∃ pc ∈ (kernelRunA c i arg1 harg1 arg2 harg2 arg3 harg3 arg4 harg4 arg5 harg5 arg6 harg6 arg7 harg7 arg8 harg8 hc x0 x1 x2 x3 x4 x5).1, y ∈ pc.1.set :=
  View.cover_of_tiledL (kernelRunA c i arg1 harg1 arg2 harg2 arg3 harg3 arg4 harg4 arg5 harg5 arg6 harg6 arg7 harg7 arg8 harg8 hc x0 x1 x2 x3 x4 x5).1 S512x256.size (by sl_kernel_rfl) y

/-- At the first point the one store into the scratch covers it. -/
theorem coverAS (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) (y : S4096x256.Idx) :
    ∃ pc ∈ (kernelRunA c i arg1 harg1 arg2 harg2 arg3 harg3 arg4 harg4 arg5 harg5 arg6 harg6 arg7 harg7 arg8 harg8 hc x0 x1 x2 x3 x4 x5).2.1, y ∈ pc.1.set :=
  View.cover_of_tiledL (kernelRunA c i arg1 harg1 arg2 harg2 arg3 harg3 arg4 harg4 arg5 harg5 arg6 harg6 arg7 harg7 arg8 harg8 hc x0 x1 x2 x3 x4 x5).2.1 S4096x256.size (by sl_kernel_rfl) y

/-- At a later point the one store into the output buffer covers it. -/
theorem coverB6 (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) (y : S512x256.Idx) :
    ∃ pc ∈ (kernelRunB c i arg1 harg1 arg2 harg2 arg3 harg3 arg4 harg4 arg5 harg5 arg6 harg6 arg7 harg7 arg8 harg8 hc x0 x1 x2 x3 x4 x5 xs).1, y ∈ pc.1.set :=
  View.cover_of_tiledL (kernelRunB c i arg1 harg1 arg2 harg2 arg3 harg3 arg4 harg4 arg5 harg5 arg6 harg6 arg7 harg7 arg8 harg8 hc x0 x1 x2 x3 x4 x5 xs).1 S512x256.size (by sl_kernel_rfl) y

/-- What the first point leaves in the output buffer. -/
def outA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) : Vec F S512x256 .f32 :=
  VO.read (Elt F) (VO.writes (Elt F) VO.junk (kernelRunA c i arg1 harg1 arg2 harg2 arg3 harg3 arg4 harg4 arg5 harg5 arg6 harg6 arg7 harg7 arg8 harg8 hc x0 x1 x2 x3 x4 x5).1)

/-- What the first point leaves in the scratch. -/
def scrA (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) : Vec F S4096x256 .f32 :=
  VS.read (Elt F) (VS.writes (Elt F) VS.junk (kernelRunA c i arg1 harg1 arg2 harg2 arg3 harg3 arg4 harg4 arg5 harg5 arg6 harg6 arg7 harg7 arg8 harg8 hc x0 x1 x2 x3 x4 x5).2.1)

/-- What a later point leaves in the output buffer, the scratch holding `xs`. -/
def outB (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) : Vec F S512x256 .f32 :=
  VO.read (Elt F) (VO.writes (Elt F) VO.junk (kernelRunB c i arg1 harg1 arg2 harg2 arg3 harg3 arg4 harg4 arg5 harg5 arg6 harg6 arg7 harg7 arg8 harg8 hc x0 x1 x2 x3 x4 x5 xs).1)

/-! ## The stored values -/

theorem hz2 : (![0, 0] : Fin 2 → Nat) = fun _ => 0 := funext fun a => by fin_cases a <;> rfl

/-- The 512 feature rows of the point: rows 512·i to 512·i + 511 of the features. -/
abbrev rRows (i : grid0.Coords) : Rect S4096x256 := Rect.unit (s := S4096x256) (k0_off1 i) S512x256.size (k0_off1_inb i)
/-- The table's rows 0 to 2047. -/
abbrev rTop : Rect S4096x256 := Rect.unit (s := S4096x256) ![0, 0] S2048x256.size inb_S4096x256_S2048x256_0_0
/-- The table's rows 2048 to 4095. -/
abbrev rBot : Rect S4096x256 := Rect.unit (s := S4096x256) ![2048, 0] S2048x256.size inb_S4096x256_S2048x256_2048_0

/-- The output block as the body computes it from the features `x0`, the two mask halves `x1`, `x2`, the root
    weights `x4`, the bias row `x5` and the message table `P`. -/
def blockVal (i : grid0.Coords) (x0 : Vec F S4096x256 .f32) (x1 x2 : Vec F S512x2048 .f32) (x4 : Vec F S256x256 .f32)
    (x5 : Vec F S1x256 .f32) (P : Vec F S4096x256 .f32) : Vec F S512x256 .f32 :=
  k0_pay2 (View.ld x0 (rRows i)) x1 (View.ld P rTop) x2 (View.ld P rBot) x4 x5

/-- One store through the whole scratch covers it. -/
theorem cover_one (w : S4096x256.Idx → Elt F .f32) (y : S4096x256.Idx) :
    ∃ p ∈ [(⟨Rect.unit (s := S4096x256) ![0, 0] S4096x256.size inb_S4096x256_S4096x256_0_0, w⟩ : View.Piece (Elt F) S4096x256 .f32)], y ∈ p.1.set :=
  View.cover_of_tiledL _ S4096x256.size (by sl_kernel_rfl) y

/-- The scratch after the first point is the message table of the loaded features and weights. -/
theorem scrA_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    scrA c i arg1 harg1 arg2 harg2 arg3 harg3 arg4 harg4 arg5 harg5 arg6 harg6 arg7 harg7 arg8 harg8 hc x0 x1 x2 x3 x4 x5 = k0_pay1 x0 x3 := by
  unfold scrA
  rw [View.read_writes_eq_canon _ _ _ (coverAS c i arg1 harg1 arg2 harg2 arg3 harg3 arg4 harg4 arg5 harg5 arg6 harg6 arg7 harg7 arg8 harg8 hc x0 x1 x2 x3 x4 x5)]
  unfold kernelRunA
  dsimp only
  sl_unfold_words
  rw [View.canon_unit_zero (S := S4096x256) hz2]
  simp only [View.readAt_eq_ld, harg1.read_unread, harg4.read_unread, View.ld_unit_zero (S := S4096x256) hz2, View.ld_unit_zero (S := S256x256) hz2]

/-- The output block after a later point: the body's term over the scratch's contents. -/
theorem outB_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : ¬cond0 i)
    (x0 : Vec F S4096x256 .f32) (x1 : Vec F S512x2048 .f32) (x2 : Vec F S512x2048 .f32) (x3 : Vec F S256x256 .f32) (x4 : Vec F S256x256 .f32) (x5 : Vec F S1x256 .f32) (xs : Vec F S4096x256 .f32) :
    outB c i arg1 harg1 arg2 harg2 arg3 harg3 arg4 harg4 arg5 harg5 arg6 harg6 arg7 harg7 arg8 harg8 hc x0 x1 x2 x3 x4 x5 xs = blockVal i x0 x1 x2 x4 x5 xs := by
  unfold outB
  rw [View.read_writes_eq_canon _ _ _ (coverB6 c i arg1 harg1 arg2 harg2 arg3 harg3 arg4 harg4 arg5 harg5 arg6 harg6 arg7 harg7 arg8 harg8 hc x0 x1 x2 x3 x4 x5 xs)]
  unfold kernelRunB
  dsimp only
  sl_unfold_words
  rw [View.canon_unit_zero (S := S512x256) hz2]
  simp only [View.readAt_eq_ld, harg1.read_unread, harg2.read_unread, harg3.read_unread, harg5.read_unread, harg6.read_unread, harg8.read_unread,
    View.ld_unit_zero (S := S512x2048) hz2, View.ld_unit_zero (S := S256x256) hz2, View.ld_unit_zero (S := S1x256) hz2]
  rfl

/-- The output block after the first point: the body's term over the table the same point has just stored. -/
theorem outA_eq (c : Dev nD) (i : grid0.Coords) (arg1 : Memref sig .tc .vmem S4096x256 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc : cond0 i)
    (x0 : Vec F S4096x256 .f32) (x1 : Vec F S512x2048 .f32) (x2 : Vec F S512x2048 .f32) (x3 : Vec F S256x256 .f32) (x4 : Vec F S256x256 .f32) (x5 : Vec F S1x256 .f32) :
    outA c i arg1 harg1 arg2 harg2 arg3 harg3 arg4 harg4 arg5 harg5 arg6 harg6 arg7 harg7 arg8 harg8 hc x0 x1 x2 x3 x4 x5 = blockVal i x0 x1 x2 x4 x5 (k0_pay1 x0 x3) := by
  unfold outA
  rw [View.read_writes_eq_canon _ _ _ (coverA6 c i arg1 harg1 arg2 harg2 arg3 harg3 arg4 harg4 arg5 harg5 arg6 harg6 arg7 harg7 arg8 harg8 hc x0 x1 x2 x3 x4 x5)]
  unfold kernelRunA
  dsimp only
  sl_unfold_words
  rw [View.canon_unit_zero (S := S512x256) hz2]
  simp only [View.readCov_eq_canon_ld _ _ _ (cover_one _), View.canon_unit_zero (S := S4096x256) hz2,
    View.readAt_eq_ld, harg1.read_unread, harg2.read_unread, harg3.read_unread, harg4.read_unread, harg5.read_unread, harg6.read_unread,
    View.ld_unit_zero (S := S4096x256) hz2, View.ld_unit_zero (S := S512x2048) hz2, View.ld_unit_zero (S := S256x256) hz2, View.ld_unit_zero (S := S1x256) hz2]
  rfl

end Cert.KernelIdeal.Fr

end
-- ==== Proof.KISplit.lean ====
/-
  How the region's arrays are dealt to its seven windows at entry. Six distinct buffers stand behind the seven windows:
  the mask is read by two input windows, its left column half and its right column half. The six buffers, each held
  whole at its entry contents, make the seven windows' arrays when the mask's full share is split into its two halves,
  one for each of the two windows on it; every other window takes its buffer outright.
-/
import proofs.«153418_g89275190215169_cont_sun_m_580_8_alg».proof.Proof.KISetup

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers behind the windows' arrays, whole at the entry contents, are the windows' arrays at entry, for any proof
    data whose arrays are the entry contents and whose input shares are the full share except on the two mask windows,
    which hold the left and the right half. -/
theorem arrays_of_bufs {c : Dev nD} (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) :
    (Pipeline.arrBufs (Ix := Unit) (Name := ℕ) (U := UR sig nD τ) (Lvl := ℕ) spec0 c (V m c) : sProp 𝕄) ⊢ dat.arrays (dat.arrAt · 0) := by
  -- An input window holds its array at the share the data give it; the output window holds its array whole.
  have s0 : dat.share 0 = fullShare := (show dat.share 0 = dat.q 0 from rfl).trans hq0
  have s1 : dat.share 1 = fullShare.left := (show dat.share 1 = dat.q 1 from rfl).trans hq1
  have s2 : dat.share 2 = fullShare.right := (show dat.share 2 = dat.q 2 from rfl).trans hq2
  have s3 : dat.share 3 = fullShare := (show dat.share 3 = dat.q 3 from rfl).trans hq3
  have s4 : dat.share 4 = fullShare := (show dat.share 4 = dat.q 4 from rfl).trans hq4
  have s5 : dat.share 5 = fullShare := (show dat.share 5 = dat.q 5 from rfl).trans hq5
  have s6 : dat.share 6 = fullShare := rfl
  -- Before any write-back a window's array is at its entry contents, the contents of the buffer behind it.
  have a0 : dat.arrAt 0 0 = V m c main_arg0 := hA 0
  have a1 : dat.arrAt 1 0 = V m c main_arg1 := hA 1
  have a2 : dat.arrAt 2 0 = V m c main_arg1 := hA 2
  have a3 : dat.arrAt 3 0 = V m c main_arg2 := hA 3
  have a4 : dat.arrAt 4 0 = V m c main_arg3 := hA 4
  have a5 : dat.arrAt 5 0 = V m c main_call0_v0 := hA 5
  have a6 : dat.arrAt 6 0 = V m c main_v0 := hA 6
  unfold Pipeline.arrBufs Dat.arrays
  -- The six distinct buffers on the left, the seven windows on the right, each listed one by one.
  rw [bigSep_eq_bigSepL_of_eq [main_arg0, main_arg1, main_arg2, main_arg3, main_call0_v0, main_v0] (by decide) (by decide), Gen.bigSep_W0]
  simp only [bigSepL_cons_cons, bigSepL_singleton]
  rw [s0, s1, s2, s3, s4, s5, s6, a0, a1, a2, a3, a4, a5, a6]
  -- Every window's array is a whole buffer: its elements are all of the buffer's.
  simp only [View.set_whole]
  refine (show (iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_arg3) ↦{fullShare} V m c main_arg3)
      ∗ (((c : Thread nD τ).loc main_call0_v0) ↦{fullShare} V m c main_call0_v0) ∗ (((c : Thread nD τ).loc main_v0) ↦{fullShare} V m c main_v0)) : sProp 𝕄) ⊢ _ from ?_)
  iintro ⟨H0, H1, H2, H3, H4, H5⟩
  -- The mask's full share is its left half and its right half, one for each of the two windows on it.
  ihave H := (pointsTo_share (PosShare.mem_left_op_right fullShare)).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

end Cert.KernelIdeal.Fr

end
-- ==== Proof.KIFrame.lean ====
/-
  The fused node-convolution kernel's region, point by point. The first of the eight grid points fills the scratch
  with the message table and every point stores one block of 512 rows of the result; the scratch is never written
  again, so after the first point it holds the table at every later point. From this: what each window's staging
  buffer holds after the body at each point, the region's invariant (the scratch at anything before the first point,
  at the table afterwards), the body's run at every point, and the run of the whole program, in which the two mask
  windows each hold half of the mask's share. The program's arguments end as they began.
-/
import proofs.«153418_g89275190215169_cont_sun_m_580_8_alg».proof.Proof.KIPieces
import proofs.«153418_g89275190215169_cont_sun_m_580_8_alg».proof.Proof.KISplit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Point by point -/

/-- The message table: what the first point leaves in the scratch, from the first point's blocks. -/
def tbl (c : Dev nD) : Vec F S4096x256 .f32 :=
  scrA c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) scM (Memref.isWhole_whole _) ((hcond0 t0_0).mpr rfl) (iblk m c 0 t0_0) (iblk m c 1 t0_0) (iblk m c 2 t0_0) (iblk m c 3 t0_0) (iblk m c 4 t0_0) (iblk m c 5 t0_0)

/-- What the output window's staging buffer holds after the body at point `t`. -/
def outAt (c : Dev nD) (t : Fin cfg0.N) : Vec F S512x256 .f32 :=
  if h : t.val = 0 then
    outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t)
  else
    outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hc => h ((hcond0 t).mp hc)) (iblk m c 0 t) (iblk m c 1 t) (iblk m c 2 t) (iblk m c 3 t) (iblk m c 4 t) (iblk m c 5 t) (tbl m c)

theorem outAt_zero (c : Dev nD) (t : Fin cfg0.N) (h : t.val = 0) :
    outAt m c t = outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) := dif_pos h

theorem outAt_pos (c : Dev nD) (t : Fin cfg0.N) (h : ¬t.val = 0) :
    outAt m c t = outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hc => h ((hcond0 t).mp hc)) (iblk m c 0 t) (iblk m c 1 t) (iblk m c 2 t) (iblk m c 3 t) (iblk m c 4 t) (iblk m c 5 t) (tbl m c) := dif_neg h

/-- The message table is the product of the features and the weights as the region finds them at its first point. -/
theorem tbl_eq (c : Dev nD) : tbl m c = k0_pay1 (iblk m c 0 t0_0) (iblk m c 3 t0_0) := by
  unfold tbl
  exact scrA_eq c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) scM (Memref.isWhole_whole _) ((hcond0 t0_0).mpr rfl) (iblk m c 0 t0_0) (iblk m c 1 t0_0) (iblk m c 2 t0_0) (iblk m c 3 t0_0) (iblk m c 4 t0_0) (iblk m c 5 t0_0)

/-- At every point the output buffer ends at the body's term of the point's blocks and the message table: at the first
    point the table is the one the point has just stored, afterwards the one the scratch still holds. -/
theorem outAt_eq (c : Dev nD) (t : Fin cfg0.N) :
    outAt m c t = blockVal (grid0.coords t) (iblk m c 0 t) (iblk m c 1 t) (iblk m c 2 t) (iblk m c 4 t) (iblk m c 5 t) (tbl m c) := by
  by_cases hz : t.val = 0
  · rw [outAt_zero m c t hz, outA_eq]
    obtain rfl : t = t0_0 := Fin.ext hz
    rw [tbl_eq]
  · rw [outAt_pos m c t hz, outB_eq]

/-- The region's invariant before position `n`: the scratch at anything before the first point, at the message table
    afterwards. -/
def PhiS (c : Dev nD) (n : ℕ) : sProp 𝕄 :=
  if n = 0 then iprop(∃ d, owns (c : Thread nD τ) scM fullShare d) else owns (c : Thread nD τ) scM fullShare (tbl m c)

theorem PhiS_zero (c : Dev nD) : PhiS m c 0 = iprop(∃ d, owns (c : Thread nD τ) scM fullShare d) := if_pos rfl
theorem PhiS_pos (c : Dev nD) (n : ℕ) (h : n ≠ 0) : PhiS m c n = owns (c : Thread nD τ) scM fullShare (tbl m c) := if_neg h

/-! ## The proof data -/

/-- The region's proof data on core `c`: the arrays as the region finds them; after the body each input's buffer at
    its block and the output's at `outAt`; the invariant `PhiS`; the mask's share split between its two windows;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns: no window is idle at any point, so every buffer is left at the proof data's contents. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4800000 in
/-- The body at any point: the inputs' buffers hold their blocks; at the first point the scratch holds anything and the
    run leaves the message table in it, at a later point it holds the table and the run leaves it alone; either way
    the output buffer ends at `outAt`. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, after0, after1, after2, after3, after4, after5, after6]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  by_cases hz : t.val = 0
  · rw [outAt_zero m c t hz]
    obtain rfl : t = t0_0 := Fin.ext hz
    unfold outA tbl scrA
    rw [show PhiS m c (t0_0 : Fin cfg0.N).val = PhiS m c 0 from rfl, PhiS_zero]
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t0_0) _ _ _ _ _ _ _ _ _ _ _ _ _ _ _ _ ((hcond0 t0_0).mpr hz) (iblk m c 0 t0_0) (iblk m c 1 t0_0) (iblk m c 2 t0_0) (iblk m c 3 t0_0) (iblk m c 4 t0_0) (iblk m c 5 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (coverAS (F := F) c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA6 (F := F) c _ _ _ _ _ _ _ _ _ _ _ _ _ _ _ _ _ _ _ _ _ _ _ _)
  · rw [outAt_pos m c t hz, PhiS_pos m c _ hz]
    unfold outB
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ _ _ (fun hc => hz ((hcond0 t).mp hc)) (iblk m c 0 t) (iblk m c 1 t) (iblk m c 2 t) (iblk m c 3 t) (iblk m c 4 t) (iblk m c 5 t) (tbl m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB6 (F := F) c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- The launch hands the region its scoped rest, the scratch at anything: the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest_eq']
  iintro ⟨-, H⟩; iexact H

/-- After the last point the invariant gives the scoped rest back: the table's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest_eq']
  iintro H
  isplitr
  · iempintro
  iexists _; iexact H

/-- The mask's full share is dealt to its two windows half and half; every other array goes to its window outright. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of_bufs m (dats m 0 c) (A_eq m c) rfl rfl rfl rfl rfl rfl

set_option backward.isDefEq.respectTransparency.types false in
/-- At the compiled mesh, for any values, from any memory with zero counters: every weakly fair execution of the program
    terminates, every array of the region ends at what the proof data compute (an input array at its entry contents,
    the result with every block written back), and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr
      · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: every weakly fair execution terminates, nothing faults, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.KernelIdeal.Fr

end
-- ==== Proof.KPay.lean ====
/-
  The kernel body's two stored values read at an index, over the extended reals.
  The value stored into the scratch at the first grid point is the message table: entry (k, c) is
  ∑ j, attr[k, j] · W[j, c]. The value stored into the output block is, at (p, c), the left mask half against the
  scratch's upper rows plus the right mask half against its lower rows, plus the block's own rows against the root
  weights, plus the bias row.
-/
import proofs.«153418_g89275190215169_cont_sun_m_580_8_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ### The [4096, 256] by [256, 256] product -/

/-- The left operand's row coordinate is the result's row coordinate. -/
theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- The left operand's column coordinate is the contraction coordinate. -/
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's row coordinate is the contraction coordinate. -/
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- The right operand's column coordinate is the result's column coordinate. -/
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A [4096, 256] array times a [256, 256] array, accumulated from zero, has at (p, c) the entry `∑ k, l[p, k] · r[k, c]`. -/
theorem matmulA_apply (l : FVec Ideal S4096x256 .f32) (r : FVec Ideal S256x256 .f32) (p : Fin 4096) (c : Fin 256) :
    matmul dot_S4096x256_S256x256_S4096x256_1_0_0_1_n_n none l r (constant (F := Ideal) S4096x256 .f32 0x00000000#32) (ix2 p c)
      = ∑ k : Fin 256, l (ix2 p k) * r (ix2 k c) := by
  show FloatOps.matmul _ _ _ _ _ _ = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p c) ((contrEquiv1 dot_S4096x256_S256x256_S4096x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x256_S4096x256_1_0_0_1_n_n.rhsIdx (ix2 p c) ((contrEquiv1 dot_S4096x256_S256x256_S4096x256_1_0_0_1_n_n 256 rfl rfl).symm k) = ix2 k c := funext fun a => Fin.ext (by
    match a with
    | ⟨0, _⟩ => exact (rhsA_0 _ _).trans hk
    | ⟨1, _⟩ => exact rhsA_1 _ _)
  rw [el, er]

/-! ### The [512, 2048] by [2048, 256] product -/

/-- The left operand's row coordinate is the result's row coordinate. -/
theorem lhsB_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- The left operand's column coordinate is the contraction coordinate. -/
theorem lhsB_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
/-- The right operand's row coordinate is the contraction coordinate. -/
theorem rhsB_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
/-- The right operand's column coordinate is the result's column coordinate. -/
theorem rhsB_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A [512, 2048] array times a [2048, 256] array, accumulated from zero, has at (p, c) the entry `∑ k, l[p, k] · r[k, c]`. -/
theorem matmulB_apply (l : FVec Ideal S512x2048 .f32) (r : FVec Ideal S2048x256 .f32) (p : Fin 512) (c : Fin 256) :
    matmul dot_S512x2048_S2048x256_S512x256_1_0_0_1_n_n none l r (constant (F := Ideal) S512x256 .f32 0x00000000#32) (ix2 p c)
      = ∑ k : Fin 2048, l (ix2 p k) * r (ix2 k c) := by
  show FloatOps.matmul _ _ _ _ _ _ = _
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p c) ((contrEquiv1 dot_S512x2048_S2048x256_S512x256_1_0_0_1_n_n 2048 rfl rfl).symm k) = ix2 p k := funext fun a => Fin.ext (by
    match a with
    | ⟨0, _⟩ => exact lhsB_0 _ _
    | ⟨1, _⟩ => exact (lhsB_1 _ _).trans hk)
  have er : dot_S512x2048_S2048x256_S512x256_1_0_0_1_n_n.rhsIdx (ix2 p c) ((contrEquiv1 dot_S512x2048_S2048x256_S512x256_1_0_0_1_n_n 2048 rfl rfl).symm k) = ix2 k c := funext fun a => Fin.ext (by
    match a with
    | ⟨0, _⟩ => exact (rhsB_0 _ _).trans hk
    | ⟨1, _⟩ => exact rhsB_1 _ _)
  rw [el, er]

/-! ### The [512, 256] by [256, 256] product -/

/-- The left operand's row coordinate is the result's row coordinate. -/
theorem lhsC_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- The left operand's column coordinate is the contraction coordinate. -/
theorem lhsC_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The right operand's row coordinate is the contraction coordinate. -/
theorem rhsC_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- The right operand's column coordinate is the result's column coordinate. -/
theorem rhsC_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A [512, 256] array times a [256, 256] array, accumulated from zero, has at (p, c) the entry `∑ k, l[p, k] · r[k, c]`. -/
theorem matmulC_apply (l : FVec Ideal S512x256 .f32) (r : FVec Ideal S256x256 .f32) (p : Fin 512) (c : Fin 256) :
    matmul dot_S512x256_S256x256_S512x256_1_0_0_1_n_n none l r (constant (F := Ideal) S512x256 .f32 0x00000000#32) (ix2 p c)
      = ∑ k : Fin 256, l (ix2 p k) * r (ix2 k c) := by
  show FloatOps.matmul _ _ _ _ _ _ = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p c) ((contrEquiv1 dot_S512x256_S256x256_S512x256_1_0_0_1_n_n 256 rfl rfl).symm k) = ix2 p k := funext fun a => Fin.ext (by
    match a with
    | ⟨0, _⟩ => exact lhsC_0 _ _
    | ⟨1, _⟩ => exact (lhsC_1 _ _).trans hk)
  have er : dot_S512x256_S256x256_S512x256_1_0_0_1_n_n.rhsIdx (ix2 p c) ((contrEquiv1 dot_S512x256_S256x256_S512x256_1_0_0_1_n_n 256 rfl rfl).symm k) = ix2 k c := funext fun a => Fin.ext (by
    match a with
    | ⟨0, _⟩ => exact (rhsC_0 _ _).trans hk
    | ⟨1, _⟩ => exact rhsC_1 _ _)
  rw [el, er]

/-! ### The two stored values -/

/-- The scratch fill at (k, c): node k's message in channel c. -/
theorem pay1_apply (x : Vec Ideal S4096x256 .f32) (w : Vec Ideal S256x256 .f32) (k : Fin 4096) (c : Fin 256) :
    k0_pay1 (F := Ideal) x w (ix2 k c) = ∑ j : Fin 256, x (ix2 k j) * w (ix2 j c) := by
  unfold k0_pay1
  -- a cast to the same shape changes nothing; what is left is the product into zero
  exact (congrFun (shapeCast_self _ _) _).trans (matmulA_apply x w k c)

/-- The output block at (p, c). -/
theorem pay2_apply (v5 : Vec Ideal S512x256 .f32) (v6 : Vec Ideal S512x2048 .f32) (v7 : Vec Ideal S2048x256 .f32)
    (v9 : Vec Ideal S512x2048 .f32) (v10 : Vec Ideal S2048x256 .f32) (v13 : Vec Ideal S256x256 .f32)
    (v16 : Vec Ideal S1x256 .f32) (p : Fin 512) (c : Fin 256) :
    k0_pay2 (F := Ideal) v5 v6 v7 v9 v10 v13 v16 (ix2 p c)
      = (((∑ k : Fin 2048, v6 (ix2 p k) * v7 (ix2 k c)) + ∑ k : Fin 2048, v9 (ix2 p k) * v10 (ix2 k c))
          + ∑ j : Fin 256, v5 (ix2 p j) * v13 (ix2 j c)) + v16 (ix2 (0 : Fin 1) c) := by
  unfold k0_pay2
  -- the sums add entry by entry; the bias row, cast to its own shape, is read at column c in every row
  simp only [addf_apply]
  rw [matmulB_apply, matmulB_apply, matmulC_apply, shapeCast_self, broadcastTo_1b_ab_apply]

end Cert.KernelIdeal.Pay

end
-- ==== Proof.Spec.lean ====
/-
  The node convolution as one function of its five arguments, index by index, over the extended reals:
  every node k sends the message msg k c = ∑ j, attr[k, j] · W[j, c]; row r of the result gathers the messages
  weighted by mask[r, ·], adds the node's own features through the root weights, and adds the bias:

    conv[r, c] = (∑ k, mask[r, k] · msg k c  +  ∑ j, attr[r, j] · root[j, c])  +  bias[c].

  The sum over the 4096 senders may be taken as the senders below 2048 plus the senders from 2048 on: a finite sum
  in a commutative monoid splits along any partition of its index set, and the extended reals under addition are one.
-/
import Idealize.ShloMosaic.Lib.ValueIdx
import Idealize.ShloMosaic.PureOps.Ideal
import Mathlib.Algebra.BigOperators.Fin

noncomputable section

namespace Cert.Spec

open Idealize.ShloMosaic Idealize.ShloMosaic.ValueIdx

/-- The message node `k` sends in channel `c`. -/
def msg (attr : (⟨2, ![4096, 256]⟩ : Shape).Idx → EReal) (W : (⟨2, ![256, 256]⟩ : Shape).Idx → EReal)
    (k : Fin 4096) (c : Fin 256) : EReal :=
  ∑ j : Fin 256, attr (ix2 k j) * W (ix2 j c)

/-- The convolution at row `r`, channel `c`. -/
def convAt (attr : (⟨2, ![4096, 256]⟩ : Shape).Idx → EReal) (mask : (⟨2, ![4096, 4096]⟩ : Shape).Idx → EReal)
    (W root : (⟨2, ![256, 256]⟩ : Shape).Idx → EReal) (bias : (⟨1, ![256]⟩ : Shape).Idx → EReal)
    (r : Fin 4096) (c : Fin 256) : EReal :=
  ((∑ k : Fin 4096, mask (ix2 r k) * msg attr W k c) + ∑ j : Fin 256, attr (ix2 r j) * root (ix2 j c)) + bias (ix1 c)

/-- The convolution as an array. -/
def conv (attr : (⟨2, ![4096, 256]⟩ : Shape).Idx → EReal) (mask : (⟨2, ![4096, 4096]⟩ : Shape).Idx → EReal)
    (W root : (⟨2, ![256, 256]⟩ : Shape).Idx → EReal) (bias : (⟨1, ![256]⟩ : Shape).Idx → EReal) :
    (⟨2, ![4096, 256]⟩ : Shape).Idx → EReal :=
  fun i => convAt attr mask W root bias (i 0) (i 1)

/-- Sender `k` of the lower half. -/
def lo (k : Fin 2048) : Fin 4096 := ⟨k.val, by omega⟩
/-- Sender `2048 + k` of the upper half. -/
def hi (k : Fin 2048) : Fin 4096 := ⟨2048 + k.val, by omega⟩

/-- The convolution with the senders taken half by half. -/
def convSplitAt (attr : (⟨2, ![4096, 256]⟩ : Shape).Idx → EReal) (mask : (⟨2, ![4096, 4096]⟩ : Shape).Idx → EReal)
    (W root : (⟨2, ![256, 256]⟩ : Shape).Idx → EReal) (bias : (⟨1, ![256]⟩ : Shape).Idx → EReal)
    (r : Fin 4096) (c : Fin 256) : EReal :=
  (((∑ k : Fin 2048, mask (ix2 r (lo k)) * msg attr W (lo k) c) + ∑ k : Fin 2048, mask (ix2 r (hi k)) * msg attr W (hi k) c)
      + ∑ j : Fin 256, attr (ix2 r j) * root (ix2 j c)) + bias (ix1 c)

/-- A sum over 4096 senders is the sum over the lower half plus the sum over the upper half. -/
theorem sum_halves (f : Fin 4096 → EReal) : ∑ k : Fin 4096, f k = (∑ k : Fin 2048, f (lo k)) + ∑ k : Fin 2048, f (hi k) := by
  have h := Fin.sum_univ_add (M := EReal) (a := 2048) (b := 2048) f
  rw [h]
  congr 1

/-- Half by half or all at once, the convolution is the same. -/
theorem convSplit_eq (attr : (⟨2, ![4096, 256]⟩ : Shape).Idx → EReal) (mask : (⟨2, ![4096, 4096]⟩ : Shape).Idx → EReal)
    (W root : (⟨2, ![256, 256]⟩ : Shape).Idx → EReal) (bias : (⟨1, ![256]⟩ : Shape).Idx → EReal)
    (r : Fin 4096) (c : Fin 256) :
    convSplitAt attr mask W root bias r c = convAt attr mask W root bias r c := by
  unfold convSplitAt convAt
  rw [sum_halves (fun k => mask (ix2 r k) * msg attr W k c)]

end Cert.Spec

end
-- ==== Proof.KIBlock.lean ====
/-
  The output block read at an index is the convolution at the block's row. Point t stores rows 512·t to 512·t + 511 of
  the result. At (p, c) the body's term is the left mask half of row 512·t + p against the messages of the senders
  below 2048, plus the right mask half against the messages of the senders from 2048 on, plus the row's own features
  through the root weights, plus the bias: the convolution with its senders taken half by half, which is the
  convolution.
-/
import proofs.«153418_g89275190215169_cont_sun_m_580_8_alg».proof.Proof.KIPieces
import proofs.«153418_g89275190215169_cont_sun_m_580_8_alg».proof.Proof.KPay
import proofs.«153418_g89275190215169_cont_sun_m_580_8_alg».proof.Proof.Spec

noncomputable section

namespace Cert.KernelIdeal.Pay

open Idealize.ShloMosaic Idealize.ShloMosaic.ValueIdx Cert.KernelIdeal Cert.KernelIdeal.Gen Cert.KernelIdeal.Fr Cert.Spec

/-- Row `512·t + p` of the result: row `p` of the block point `t` stores. -/
def row (t : Fin cfg0.N) (p : Fin 512) : Fin 4096 :=
  ⟨512 * t.val + p.val, by have h1 := t.isLt; have h2 : cfg0.N = 8 := N_0; have h3 := p.isLt; omega⟩

/-- Point `t` reads its 512 feature rows from row `512·t` on, at column 0. -/
theorem rowsOff (t : Fin cfg0.N) : k0_off1 (grid0.coords t) = ![512 * t.val, 0] :=
  (by decide +kernel : ∀ t : Fin grid0.N, k0_off1 (grid0.coords t) = ![512 * t.val, 0]) t

/-- Rows 0 to 2047 of an array read at (k, c): the array at row `k`, a sender of the lower half. -/
theorem ld_top (P : Vec Ideal S4096x256 .f32) (k : Fin 2048) (c : Fin 256) :
    View.ld P rTop (ix2 k c) = P (ix2 (lo k) c) :=
  congrArg P (funext fun a => Fin.ext (by
    match a with
    | ⟨0, _⟩ => show 0 + 1 * k.val = k.val; omega
    | ⟨1, _⟩ => show 0 + 1 * c.val = c.val; omega))

/-- Rows 2048 to 4095 of an array read at (k, c): the array at row `2048 + k`, a sender of the upper half. -/
theorem ld_bot (P : Vec Ideal S4096x256 .f32) (k : Fin 2048) (c : Fin 256) :
    View.ld P rBot (ix2 k c) = P (ix2 (hi k) c) :=
  congrArg P (funext fun a => Fin.ext (by
    match a with
    | ⟨0, _⟩ => show 2048 + 1 * k.val = 2048 + k.val; omega
    | ⟨1, _⟩ => show 0 + 1 * c.val = c.val; omega))

/-- The point's 512 rows of an array read at (p, j): the array at row `512·t + p`. -/
theorem ld_rows (t : Fin cfg0.N) (X : Vec Ideal S4096x256 .f32) (p : Fin 512) (j : Fin 256) :
    View.ld X (rRows (grid0.coords t)) (ix2 p j) = X (ix2 (row t p) j) :=
  congrArg X (funext fun a => Fin.ext (by
    match a with
    | ⟨0, _⟩ =>
      show k0_off1 (grid0.coords t) 0 + 1 * p.val = 512 * t.val + p.val
      rw [rowsOff t]
      show 512 * t.val + 1 * p.val = 512 * t.val + p.val
      omega
    | ⟨1, _⟩ =>
      show k0_off1 (grid0.coords t) 1 + 1 * j.val = j.val
      rw [rowsOff t]
      show 0 + 1 * j.val = j.val
      omega))

/-- Four summands equal one by one give equal sums. -/
theorem add4_congr {a b c d a' b' c' d' : EReal} (ha : a = a') (hb : b = b') (hc : c = c') (hd : d = d') :
    ((a + b) + c) + d = ((a' + b') + c') + d' := by
  rw [ha, hb, hc, hd]

/-- The body's term at (p, c), over the features, the weights and the root weights as they are and over mask blocks
    and a bias row that hold the point's mask entries and the bias, is the convolution at row `512·t + p`. -/
theorem blockVal_conv (t : Fin cfg0.N) (attr : Vec Ideal S4096x256 .f32) (mask : Vec Ideal S4096x4096 .f32)
    (W root : Vec Ideal S256x256 .f32) (bias : Vec Ideal S256 .f32)
    (x1 x2 : Vec Ideal S512x2048 .f32) (x5 : Vec Ideal S1x256 .f32)
    (h1 : ∀ (p : Fin 512) (k : Fin 2048), x1 (ix2 p k) = mask (ix2 (row t p) (lo k)))
    (h2 : ∀ (p : Fin 512) (k : Fin 2048), x2 (ix2 p k) = mask (ix2 (row t p) (hi k)))
    (h5 : ∀ c : Fin 256, x5 (ix2 (0 : Fin 1) c) = bias (ix1 c))
    (p : Fin 512) (c : Fin 256) :
    blockVal (F := Ideal) (grid0.coords t) attr x1 x2 root x5 (k0_pay1 attr W) (ix2 p c)
      = convAt attr mask W root bias (row t p) c := by
  unfold blockVal
  rw [pay2_apply, ← convSplit_eq]
  unfold convSplitAt
  refine add4_congr ?_ ?_ ?_ (h5 c)
  · -- the left mask half against the messages of the lower senders
    refine Finset.sum_congr rfl fun k _ => ?_
    rw [h1, ld_top, pay1_apply]
    rfl
  · -- the right mask half against the messages of the upper senders
    refine Finset.sum_congr rfl fun k _ => ?_
    rw [h2, ld_bot, pay1_apply]
    rfl
  · -- the row's own features through the root weights
    refine Finset.sum_congr rfl fun j _ => ?_
    rw [ld_rows]

end Cert.KernelIdeal.Pay

end
-- ==== Proof.KIValue.lean ====
/-
  The value the fused kernel leaves in its result array, over the extended reals: the node convolution of the five
  arguments. Point t writes back rows 512·t to 512·t + 511; what it writes is, row by row, the convolution at that row
  (the body's term over the point's mask blocks, the features, the root weights, the bias row and the message table
  the first point left); the eight blocks tile the 4096 rows, so the array ends holding the convolution everywhere.
-/
import proofs.«153418_g89275190215169_cont_sun_m_580_8_alg».proof.Proof.KIFrame
import proofs.«153418_g89275190215169_cont_sun_m_580_8_alg».proof.Proof.KIBlock
import Idealize.ShloMosaic.Lib.StableHlo.Run
import Idealize.ShloMosaic.Lib.ValueLayout

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay Cert.Spec

variable (m : (ℓ : Loc nD τ sig) → Buf (Elt Ideal) ℓ) (ρ : Dev nD → PrngReg)

/-- The result: the convolution of the five arguments as launched. -/
def G (c : Dev nD) : Buf (Elt Ideal) ((c : Thread nD τ).loc main_v0) :=
  conv (m ((c : Thread nD τ).loc main_arg0)) (m ((c : Thread nD τ).loc main_arg1)) (m ((c : Thread nD τ).loc main_arg2)) (m ((c : Thread nD τ).loc main_arg3)) (m ((c : Thread nD τ).loc main_arg4))

/-! ## The windows' index maps, decided over the grid -/

/-- The features, the weights, the root weights and the bias row are one block each, at block index (0, 0); the mask's
    left half, its right half and the result move down one block of 512 rows per point, the right half at column
    block 1. -/
theorem idx_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 1)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## The blocks the body loads -/

/-- The features' one block is the features. -/
theorem blk0 (c : Dev nD) (t : Fin cfg0.N) : iblk m c 0 t = m ((c : Thread nD τ).loc main_arg0) := by
  obtain ⟨⟨e0, e1⟩, -⟩ := idx_facts t
  unfold iblk
  funext y
  show V m c main_arg0 (((cfg0.win 0).blk t).view.emb y) = _
  rw [V_main_arg0]
  congr 1
  funext a; apply Fin.ext
  match a with
  | ⟨0, _⟩ => show win0_0.index t (0 : Fin 2) * 4096 + 1 * (y 0).val = (y 0).val; omega
  | ⟨1, _⟩ => show win0_0.index t (1 : Fin 2) * 256 + 1 * (y 1).val = (y 1).val; omega

/-- The weights' one block is the weights. -/
theorem blk3 (c : Dev nD) (t : Fin cfg0.N) : iblk m c 3 t = m ((c : Thread nD τ).loc main_arg2) := by
  obtain ⟨-, -, -, ⟨e0, e1⟩, -⟩ := idx_facts t
  unfold iblk
  funext y
  show V m c main_arg2 (((cfg0.win 3).blk t).view.emb y) = _
  rw [V_main_arg2]
  congr 1
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The root weights' one block is the root weights. -/
theorem blk4 (c : Dev nD) (t : Fin cfg0.N) : iblk m c 4 t = m ((c : Thread nD τ).loc main_arg3) := by
  obtain ⟨-, -, -, -, ⟨e0, e1⟩, -⟩ := idx_facts t
  unfold iblk
  funext y
  show V m c main_arg3 (((cfg0.win 4).blk t).view.emb y) = _
  rw [V_main_arg3]
  congr 1
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The left mask block at (p, k) is the mask at row 512·t + p, sender k of the lower half. -/
theorem blk1 (c : Dev nD) (t : Fin cfg0.N) (p : Fin 512) (k : Fin 2048) :
    iblk m c 1 t (ix2 p k) = (m ((c : Thread nD τ).loc main_arg1)) (ix2 (row t p) (lo k)) := by
  obtain ⟨-, ⟨e0, e1⟩, -⟩ := idx_facts t
  unfold iblk
  show V m c main_arg1 (((cfg0.win 1).blk t).view.emb (ix2 p k)) = _
  rw [V_main_arg1]
  congr 1
  funext a; apply Fin.ext
  match a with
  | ⟨0, _⟩ => show win0_1.index t (0 : Fin 2) * 512 + 1 * p.val = 512 * t.val + p.val; omega
  | ⟨1, _⟩ => show win0_1.index t (1 : Fin 2) * 2048 + 1 * k.val = k.val; omega

/-- The right mask block at (p, k) is the mask at row 512·t + p, sender 2048 + k. -/
theorem blk2 (c : Dev nD) (t : Fin cfg0.N) (p : Fin 512) (k : Fin 2048) :
    iblk m c 2 t (ix2 p k) = (m ((c : Thread nD τ).loc main_arg1)) (ix2 (row t p) (hi k)) := by
  obtain ⟨-, -, ⟨e0, e1⟩, -⟩ := idx_facts t
  unfold iblk
  show V m c main_arg1 (((cfg0.win 2).blk t).view.emb (ix2 p k)) = _
  rw [V_main_arg1]
  congr 1
  funext a; apply Fin.ext
  match a with
  | ⟨0, _⟩ => show win0_2.index t (0 : Fin 2) * 512 + 1 * p.val = 512 * t.val + p.val; omega
  | ⟨1, _⟩ => show win0_2.index t (1 : Fin 2) * 2048 + 1 * k.val = 2048 + k.val; omega

/-- The region finds the bias as a row: the host's reshape of the bias vector. -/
theorem V_bias_row (c : Dev nD) :
    (V m c main_call0_v0 : S1x256.Idx → EReal) = shapeCast S1x256 (m ((c : Thread nD τ).loc main_arg4)) shapeCasts_S256_S1x256 := by
  dsimp only [V, hostOps0]; after_results; rfl

/-- The bias row's one block at (0, q) is the bias at q. -/
theorem blk5 (c : Dev nD) (t : Fin cfg0.N) (q : Fin 256) :
    iblk m c 5 t (ix2 (0 : Fin 1) q) = (m ((c : Thread nD τ).loc main_arg4)) (ix1 q) := by
  obtain ⟨-, -, -, -, -, ⟨e0, e1⟩, -⟩ := idx_facts t
  unfold iblk
  show V m c main_call0_v0 (((cfg0.win 5).blk t).view.emb (ix2 (0 : Fin 1) q)) = _
  have he : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 256 + 1 * q.val = q.val; omega
  rw [he, V_bias_row]
  refine shapeCast_apply _ shapeCasts_S256_S1x256 _ _ ?_
  rw [Shape.rowMajor_val_two, Shape.rowMajor_val_one]
  show q.val = 0 * 256 + q.val
  omega

/-! ## What each point writes back, and the array after the run -/

/-- What point `t` writes back is block `t` of the convolution. -/
theorem flushed_eq (c : Dev nD) (t : Fin cfg0.N) :
    (dats m 0 c).flushed 6 t = ((cfg0.win 6).blk t).view.read (Elt Ideal) (G m c) := by
  obtain ⟨-, -, -, -, -, -, ⟨e0, e1⟩⟩ := idx_facts t
  show (cfg0.win 6).cut (grid0.coords t) ((dats m 0 c).after 6 t) = _
  rw [after6, outAt_eq, tbl_eq, blk0 m c t, blk0 m c t0_0, blk3 m c t0_0, blk4 m c t]
  funext j
  obtain ⟨p, q, rfl⟩ : ∃ (p : Fin 512) (q : Fin 256), j = ix2 p q := ⟨j 0, j 1, eq_ix2 j⟩
  refine (blockVal_conv t (m ((c : Thread nD τ).loc main_arg0)) (m ((c : Thread nD τ).loc main_arg1)) (m ((c : Thread nD τ).loc main_arg2)) (m ((c : Thread nD τ).loc main_arg3)) (m ((c : Thread nD τ).loc main_arg4))
    (iblk m c 1 t) (iblk m c 2 t) (iblk m c 5 t) (blk1 m c t) (blk2 m c t) (blk5 m c t) p q).trans ?_
  show _ = G m c (((cfg0.win 6).blk t).view.emb (ix2 p q))
  unfold G conv
  have h0 : (((cfg0.win 6).blk t).view.emb (ix2 p q)) 0 = row t p := Fin.ext (by
    show win0_6.index t (0 : Fin 2) * 512 + 1 * p.val = 512 * t.val + p.val; omega)
  have h1 : (((cfg0.win 6).blk t).view.emb (ix2 p q)) 1 = q := Fin.ext (by
    show win0_6.index t (1 : Fin 2) * 256 + 1 * q.val = q.val; omega)
  rw [h0, h1]

/-- An index of the result is in point `t`'s block iff each coordinate is in the block's range on its axis. -/
theorem mem_blk (t : Fin cfg0.N) (i : S4096x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v0).slice (win0_6.rect t)).set ↔ _
  rw [View.set_slice_whole, Rect.mem_set_unit]
  exact Iff.rfl

/-- Every index of the result is in the block of the point its row falls in: row r belongs to point r / 512. -/
theorem cover (i : S4096x256.Idx) : ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 8 := N_0
  refine ⟨⟨(i 0).val / 512, by omega⟩, flush0_6 _, ?_⟩
  obtain ⟨-, -, -, -, -, -, ⟨e0, e1⟩⟩ := idx_facts ⟨(i 0).val / 512, by omega⟩
  rw [mem_blk]
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 256 ≤ (i 1).val ∧ (i 1).val < win0_6.index _ (1 : Fin 2) * 256 + 256
    rw [e1]; omega

/-- The result array after the run is the convolution. -/
theorem final (c : Dev nD) : (dats m 0 c).arrAt 6 cfg0.N = G m c :=
  (dats m 0 c).arrAt_eq_of_cover 6 (G m c) (fun t _ => flushed_eq m c t) cover

/-- The program's run, read: the result array ends at the convolution of the arguments, the arguments unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 6).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.KernelIdeal.Val

end
-- ==== Proof.RefValue.lean ====
/-
  The reference's value: its three products, two sums and the bias row read index by index are the convolution
  of Spec.lean, all 4096 senders summed at once.
-/
import proofs.«153418_g89275190215169_cont_sun_m_580_8_alg».proof.Proof.Gen.ReferenceIdeal.Run
import proofs.«153418_g89275190215169_cont_sun_m_580_8_alg».proof.Proof.Gen.ReferenceIdeal.Read
import proofs.«153418_g89275190215169_cont_sun_m_580_8_alg».proof.Proof.Spec

noncomputable section

namespace Cert.RefValue

open Idealize.ShloMosaic Idealize.ShloMosaic.ValueIdx Cert.ReferenceIdeal Cert.ReferenceIdeal.Read

/-- The message product at node `k`, channel `c` reads the features at `(k, j)`. -/
theorem lidx_v0 (k : Fin 4096) (c : Fin 256) (j : Fin 256) : lidx_main_v0 (ix2 k c) j = ix2 k j :=
  funext fun a => Fin.ext (by match a with | ⟨0, _⟩ => rfl | ⟨1, _⟩ => rfl)

/-- The message product at node `k`, channel `c` reads the weights at `(j, c)`. -/
theorem ridx_v0 (k : Fin 4096) (c : Fin 256) (j : Fin 256) : ridx_main_v0 (ix2 k c) j = ix2 j c :=
  funext fun a => Fin.ext (by match a with | ⟨0, _⟩ => rfl | ⟨1, _⟩ => rfl)

/-- The gathering product at row `r`, channel `c` reads the mask at `(r, k)`. -/
theorem lidx_v1 (r : Fin 4096) (c : Fin 256) (k : Fin 4096) : lidx_main_v1 (ix2 r c) k = ix2 r k :=
  funext fun a => Fin.ext (by match a with | ⟨0, _⟩ => rfl | ⟨1, _⟩ => rfl)

/-- The gathering product at row `r`, channel `c` reads the messages at `(k, c)`. -/
theorem ridx_v1 (r : Fin 4096) (c : Fin 256) (k : Fin 4096) : ridx_main_v1 (ix2 r c) k = ix2 k c :=
  funext fun a => Fin.ext (by match a with | ⟨0, _⟩ => rfl | ⟨1, _⟩ => rfl)

/-- The root product at row `r`, channel `c` reads the features at `(r, j)`. -/
theorem lidx_v2 (r : Fin 4096) (c : Fin 256) (j : Fin 256) : lidx_main_v2 (ix2 r c) j = ix2 r j :=
  funext fun a => Fin.ext (by match a with | ⟨0, _⟩ => rfl | ⟨1, _⟩ => rfl)

/-- The root product at row `r`, channel `c` reads the root weights at `(j, c)`. -/
theorem ridx_v2 (r : Fin 4096) (c : Fin 256) (j : Fin 256) : ridx_main_v2 (ix2 r c) j = ix2 j c :=
  funext fun a => Fin.ext (by match a with | ⟨0, _⟩ => rfl | ⟨1, _⟩ => rfl)

/-- The bias row spread over the rows reads, at `(r, c)`, the bias at `c`. -/
theorem idx_v45 (r : Fin 4096) (c : Fin 256) : idx_main_v4 (idx_main_v5 (ix2 r c)) = ix1 c :=
  funext fun a => Fin.ext (by match a with | ⟨0, _⟩ => rfl)

/-- The reference's result is the convolution. -/
theorem ref_eq (x0 : (⟨S4096x256, .f32⟩ : BufTy).Contents (Elt Ideal)) (x1 : (⟨S4096x4096, .f32⟩ : BufTy).Contents (Elt Ideal))
    (x2 x3 : (⟨S256x256, .f32⟩ : BufTy).Contents (Elt Ideal)) (x4 : (⟨S256, .f32⟩ : BufTy).Contents (Elt Ideal)) :
    val_main_v6 (F := Ideal) x0 x1 x2 x3 x4 = Cert.Spec.conv x0 x1 x2 x3 x4 := by
  funext i
  obtain ⟨r, c, rfl⟩ : ∃ (r : Fin 4096) (c : Fin 256), i = ix2 r c := ⟨i 0, i 1, eq_ix2 i⟩
  rw [val_main_v6_apply, val_main_v3_apply, val_main_v1_apply, val_main_v2_apply, val_main_v5_apply, val_main_v4_apply]
  simp only [val_main_v0_apply, lidx_v0, ridx_v0, lidx_v1, ridx_v1, lidx_v2, ridx_v2, idx_v45, Ideal.addf_def]
  rfl

end Cert.RefValue

end
-- ==== Proof.lean ====
/-
  The fused node-convolution kernel against its reference, over the extended reals.

  The kernel computes out = mask · (attr · W) + attr · root + bias in one region of eight grid points: the first point
  fills a scratch with the message table attr · W, and every point stores 512 rows of the result as the left half of
  its mask rows against the table's rows below 2048, plus the right half against the rows from 2048 on, plus the rows'
  own features through the root weights, plus the bias. The reference forms mask · (attr · W) with all 4096 senders in
  one sum. A finite sum over the extended reals splits along any partition of its index set (addition there is
  commutative and associative), so the two results agree entry by entry, with no use of the inputs' finiteness.

  The three frames: each kernel program runs to the end with its arguments unchanged (the region's run, in which the
  two windows on the mask each hold half of its share); the reference's frame is its run with the result dropped. The
  ideal pass rewrote nothing, so there is nothing to preserve.
-/
import proofs.«153418_g89275190215169_cont_sun_m_580_8_alg».proof.Defs
import proofs.«153418_g89275190215169_cont_sun_m_580_8_alg».proof.Proof.Gen.Kernel
import proofs.«153418_g89275190215169_cont_sun_m_580_8_alg».proof.Proof.Gen.KernelIdeal
import proofs.«153418_g89275190215169_cont_sun_m_580_8_alg».proof.Proof.Gen.ReferenceIdeal
import proofs.«153418_g89275190215169_cont_sun_m_580_8_alg».proof.Proof.Gen.Pre_finite_inputs
import proofs.«153418_g89275190215169_cont_sun_m_580_8_alg».proof.Proof.Gen.ReferenceIdeal.Run
import proofs.«153418_g89275190215169_cont_sun_m_580_8_alg».proof.Proof.Gen.ReferenceIdeal.Read
import proofs.«153418_g89275190215169_cont_sun_m_580_8_alg».proof.Proof.KFrame
import proofs.«153418_g89275190215169_cont_sun_m_580_8_alg».proof.Proof.KIFrame
import proofs.«153418_g89275190215169_cont_sun_m_580_8_alg».proof.Proof.KIValue
import proofs.«153418_g89275190215169_cont_sun_m_580_8_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, nothing faults, and its arguments end unchanged. -/
theorem frame_kernel : Cert.frame_Kernel := fun m ρ _ => Cert.Kernel.Fr.frame m ρ

/-- The idealized kernel runs to the end, nothing faults, and its arguments end unchanged. -/
theorem frame_kernel_ideal : Cert.frame_KernelIdeal := fun m ρ _ => Cert.KernelIdeal.Fr.frame m ρ

/-- The reference runs to the end with its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the convolution of the arguments in their result:
    the kernel with the senders summed half by half, the reference with all of them at once. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefValue.ref_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
